-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x768 : Shape := ⟨3, ![4, 256, 768]⟩
abbrev S4x256x256 : Shape := ⟨3, ![4, 256, 256]⟩
abbrev S256x768 : Shape := ⟨2, ![256, 768]⟩
abbrev S256 : Shape := ⟨1, ![256]⟩
abbrev S48x256 : Shape := ⟨2, ![48, 256]⟩
abbrev S12x768 : Shape := ⟨2, ![12, 768]⟩
abbrev S12 : Shape := ⟨1, ![12]⟩
abbrev S_ : Shape := ⟨0, ![]⟩

class Facts : Prop where
  bcast_S_S4x256x768 : S_.BroadcastsInDim S4x256x768 (![] : Fin 0 → Fin S4x256x768.rank)
  reducesTo_S4x256x768_S_d0_1_2 : S4x256x768.ReducesTo [0, 1, 2] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S48x256 : S_.BroadcastsInDim S48x256 (![] : Fin 0 → Fin S48x256.rank)
  reducesTo_S48x256_S_d0_1 : S48x256.ReducesTo [0, 1] S_
  bcast_S_S12x768 : S_.BroadcastsInDim S12x768 (![] : Fin 0 → Fin S12x768.rank)
  reducesTo_S12x768_S_d0_1 : S12x768.ReducesTo [0, 1] S_
  bcast_S_S12 : S_.BroadcastsInDim S12 (![] : Fin 0 → Fin S12.rank)
  reducesTo_S12_S_d0 : S12.ReducesTo [0] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part2 {F : FTy → Type} [FloatOps F] (main_arg1 : IVec S4x256x256 32) (main_arg8 : FVec F S12 .f32) (main_v33 : IVec S_ 1) : IVec S_ 1 :=
  let main_v34 : FVec F S12 .f32 := Host.absf main_arg8
  let main_cst_12 : FVec F S_ .f32 := constant S_ .f32 0x7F800000#32
  let main_v35 : FVec F S12 .f32 := broadcastInDim S12 ![] bcast_S_S12 main_cst_12
  let main_v36 : IVec S12 1 := cmpf .olt main_v34 main_v35
  let main_c_13 : IVec S_ 1 := constantI S_ 1 1#1
  let main_v37 : IVec S_ 1 := (fun x v => Host.reduce IntOp.andi x v reducesTo_S12_S_d0 h_S_) main_v36 main_c_13
  let main_v38 : IVec S_ 1 := andi main_v33 main_v37
  let main_c_14 : IVec S_ 32 := constantI S_ 32 0#32
  let main_v39 : IVec S4x256x256 32 := broadcastInDim S4x256x256 ![] bcast_S_S4x256x256 main_c_14
  let main_v40 : IVec S4x256x256 1 := cmpi .sge main_arg1 main_v39
  let main_c_15 : IVec S_ 1 := constantI S_ 1 1#1
  let main_v41 : IVec S_ 1 := (fun x v => Host.reduce IntOp.andi x v reducesTo_S4x256x256_S_d0_1_2 h_S_) main_v40 main_c_15
  let main_v42 : IVec S_ 1 := andi main_v38 main_v41
  main_v42

def fn_part1 {F : FTy → Type} [FloatOps F] (main_arg1 : IVec S4x256x256 32) (main_arg5 : FVec F S256 .f32) (main_arg6 : FVec F S48x256 .f32) (main_arg7 : FVec F S12x768 .f32) (main_arg8 : FVec F S12 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S48x256 .f32 := Host.absf main_arg6
  let main_cst_8 : FVec F S_ .f32 := constant S_ .f32 0x7F800000#32
  let main_v25 : FVec F S48x256 .f32 := broadcastInDim S48x256 ![] bcast_S_S48x256 main_cst_8
  let main_v26 : IVec S48x256 1 := cmpf .olt main_v24 main_v25
  let main_c_9 : IVec S_ 1 := constantI S_ 1 1#1
  let main_v27 : IVec S_ 1 := (fun x v => Host.reduce IntOp.andi x v reducesTo_S48x256_S_d0_1 h_S_) main_v26 main_c_9
  let main_v28 : IVec S_ 1 := andi main_v23 main_v27
  let main_v29 : FVec F S12x768 .f32 := Host.absf main_arg7
  let main_cst_10 : FVec F S_ .f32 := constant S_ .f32 0x7F800000#32
  let main_v30 : FVec F S12x768 .f32 := broadcastInDim S12x768 ![] bcast_S_S12x768 main_cst_10
  let main_v31 : IVec S12x768 1 := cmpf .olt main_v29 main_v30
  let main_c_11 : IVec S_ 1 := constantI S_ 1 1#1
  let main_v32 : IVec S_ 1 := (fun x v => Host.reduce IntOp.andi x v reducesTo_S12x768_S_d0_1 h_S_) main_v31 main_c_11
  let main_v33 : IVec S_ 1 := andi main_v28 main_v32
  fn_part2 (F := F) main_arg1 main_arg8 main_v33

def fn {F : FTy → Type} [FloatOps F] (main_arg0 : FVec F S4x256x768 .f32) (main_arg1 : IVec S4x256x256 32) (main_arg2 : FVec F S256x768 .f32) (main_arg3 : FVec F S256 .f32) (main_arg4 : FVec F S256x768 .f32) (main_arg5 : FVec F S256 .f32) (main_arg6 : FVec F S48x256 .f32) (main_arg7 : FVec F S12x768 .f32) (main_arg8 : FVec F S12 .f32) : IVec S_ 1 :=
  let main_v0 : FVec F S4x256x768 .f32 := Host.absf main_arg0
  let main_cst : FVec F S_ .f32 := constant S_ .f32 0x7F800000#32
  let main_v1 : FVec F S4x256x768 .f32 := broadcastInDim S4x256x768 ![] bcast_S_S4x256x768 main_cst
  let main_v2 : IVec S4x256x768 1 := cmpf .olt main_v0 main_v1
  let main_c : IVec S_ 1 := constantI S_ 1 1#1
  let main_v3 : IVec S_ 1 := (fun x v => Host.reduce IntOp.andi x v reducesTo_S4x256x768_S_d0_1_2 h_S_) main_v2 main_c
  let main_v4 : FVec F S256x768 .f32 := Host.absf main_arg2
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x768 .f32 := Host.absf main_arg4
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg1 main_arg5 main_arg6 main_arg7 main_arg8 main_v13 main_v16
-- ==== Kernel.lean ====
abbrev S4x256x768 : Shape := ⟨3, ![4, 256, 768]⟩
abbrev S4x256x256 : Shape := ⟨3, ![4, 256, 256]⟩
abbrev S256x768 : Shape := ⟨2, ![256, 768]⟩
abbrev S256 : Shape := ⟨1, ![256]⟩
abbrev S48x256 : Shape := ⟨2, ![48, 256]⟩
abbrev S12x768 : Shape := ⟨2, ![12, 768]⟩
abbrev S12 : Shape := ⟨1, ![12]⟩
abbrev S4x256x12x256 : Shape := ⟨4, ![4, 256, 12, 256]⟩
abbrev S1x256x768 : Shape := ⟨3, ![1, 256, 768]⟩
abbrev S1x256x256 : Shape := ⟨3, ![1, 256, 256]⟩
abbrev S1x256x12x256 : Shape := ⟨4, ![1, 256, 12, 256]⟩
abbrev S768x256 : Shape := ⟨2, ![768, 256]⟩
abbrev S256x256 : Shape := ⟨2, ![256, 256]⟩
abbrev S1x256 : Shape := ⟨2, ![1, 256]⟩
abbrev S12x256 : Shape := ⟨2, ![12, 256]⟩
abbrev S256x12 : Shape := ⟨2, ![256, 12]⟩
abbrev S48x12 : Shape := ⟨2, ![48, 12]⟩
abbrev S48x256x256 : Shape := ⟨3, ![48, 256, 256]⟩
abbrev S48x65536 : Shape := ⟨2, ![48, 65536]⟩
abbrev S12x48 : Shape := ⟨2, ![12, 48]⟩
abbrev S12x65536 : Shape := ⟨2, ![12, 65536]⟩
abbrev S12x256x256 : Shape := ⟨3, ![12, 256, 256]⟩
abbrev S256x12x256 : Shape := ⟨3, ![256, 12, 256]⟩
abbrev S256x12x1 : Shape := ⟨3, ![256, 12, 1]⟩
abbrev S1x12x256 : Shape := ⟨3, ![1, 12, 256]⟩
abbrev S1x12x1 : Shape := ⟨3, ![1, 12, 1]⟩

abbrev nBuf : Space → Nat
  | .hbm => 10
  | .vmem => 13
  | .smem => 0
  | _ => 0

abbrev bufTy : (tb : Table) → Fin (tcTables nBuf tb) → BufTy
  | .hbm, ⟨0, _⟩ => ⟨S4x256x768, .f32⟩
  | .hbm, ⟨1, _⟩ => ⟨S4x256x256, .i32⟩
  | .hbm, ⟨2, _⟩ => ⟨S256x768, .f32⟩
  | .hbm, ⟨3, _⟩ => ⟨S256, .f32⟩
  | .hbm, ⟨4, _⟩ => ⟨S256x768, .f32⟩
  | .hbm, ⟨5, _⟩ => ⟨S256, .f32⟩
  | .hbm, ⟨6, _⟩ => ⟨S48x256, .f32⟩
  | .hbm, ⟨7, _⟩ => ⟨S12x768, .f32⟩
  | .hbm, ⟨8, _⟩ => ⟨S12, .f32⟩
  | .hbm, ⟨9, _⟩ => ⟨S4x256x12x256, .f32⟩
  | .local _ .vmem, ⟨0, _⟩ => ⟨S1x256x768, .f32⟩
  | .local _ .vmem, ⟨1, _⟩ => ⟨S1x256x768, .f32⟩
  | .local _ .vmem, ⟨2, _⟩ => ⟨S1x256x256, .i32⟩
  | .local _ .vmem, ⟨3, _⟩ => ⟨S1x256x256, .i32⟩
  | .local _ .vmem, ⟨4, _⟩ => ⟨S256x768, .f32⟩
  | .local _ .vmem, ⟨5, _⟩ => ⟨S256, .f32⟩
  | .local _ .vmem, ⟨6, _⟩ => ⟨S256x768, .f32⟩
  | .local _ .vmem, ⟨7, _⟩ => ⟨S256, .f32⟩
  | .local _ .vmem, ⟨8, _⟩ => ⟨S48x256, .f32⟩
  | .local _ .vmem, ⟨9, _⟩ => ⟨S12x768, .f32⟩
  | .local _ .vmem, ⟨10, _⟩ => ⟨S12, .f32⟩
  | .local _ .vmem, ⟨11, _⟩ => ⟨S1x256x12x256, .f32⟩
  | .local _ .vmem, ⟨12, _⟩ => ⟨S1x256x12x256, .f32⟩
  | _, _ => ⟨S4x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x12x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  transposes_S256x768_p1_0_S768x256 : S256x768.Transposes [1, 0] S768x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S12x768_S12x768_0_0 : ∀ a, (![0, 0] : Fin 2 → Nat) a + S12x768.size a ≤ S12x768.size a
  h_S12x768 : 0 < S12x768.numel
  slices_S12x768_o0_0_S12x256 : S12x768.Slices ![0, 0] S12x256
  slices_S12x768_o0_256_S12x256 : S12x768.Slices ![0, 256] S12x256
  slices_S12x768_o0_512_S12x256 : S12x768.Slices ![0, 512] S12x256
  transposes_S12x256_p1_0_S256x12 : S12x256.Transposes [1, 0] S256x12
  inb_S48x256_S48x256_0_0 : ∀ a, (![0, 0] : Fin 2 → Nat) a + S48x256.size a ≤ S48x256.size a
  h_S48x256 : 0 < S48x256.numel
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  iota_S48x256x256_d0_w32 : S48x256x256.Iotas .tc 32 [0]
  shapeCasts_S256x256_S1x256x256 : S256x256.ShapeCasts S1x256x256
  broadcasts_S1x256x256_S48x256x256 : S1x256x256.Broadcasts S48x256x256
  natLt_1_32 : 1 < 32
  shapeCasts_S48x256x256_S48x65536 : S48x256x256.ShapeCasts S48x65536
  transposes_S48x12_p1_0_S12x48 : S48x12.Transposes [1, 0] S12x48
  shapeCasts_S12x65536_S12x256x256 : S12x65536.ShapeCasts S12x256x256
  transposes_S12x256x256_p1_0_2_S256x12x256 : S12x256x256.Transposes [1, 0, 2] S256x12x256
  inb_S12_S12_0 : ∀ a, (![0] : Fin 1 → Nat) a + S12.size a ≤ S12.size a
  h_S12 : 0 < S12.numel
  shapeCasts_S256x12_S256x12x1 : S256x12.ShapeCasts S256x12x1
  broadcasts_S256x12x1_S256x12x256 : S256x12x1.Broadcasts S256x12x256
  transposes_S256x12_p1_0_S12x256 : S256x12.Transposes [1, 0] S12x256
  shapeCasts_S12x256_S1x12x256 : S12x256.ShapeCasts S1x12x256
  broadcasts_S1x12x256_S256x12x256 : S1x12x256.Broadcasts S256x12x256
  shapeCasts_S12_S1x12x1 : S12.ShapeCasts S1x12x1
  broadcasts_S1x12x1_S256x12x256 : S1x12x1.Broadcasts S256x12x256
  inb_S1x256x12x256_S1x256x12x256_0_0_0_0 : ∀ a, (![0, 0, 0, 0] : Fin 4 → Nat) a + S1x256x12x256.size a ≤ S1x256x12x256.size a
  h_S1x256x12x256 : 0 < S1x256x12x256.numel
  shapeCasts_S1x256x12x256_S256x12x256 : S1x256x12x256.ShapeCasts S256x12x256
  shapeCasts_S256x12x256_S1x256x12x256 : S256x12x256.ShapeCasts S1x256x12x256
  dot_S256x768_S768x256_S256x256_1_0_0_1_n_n_wf : DotDims.WF S256x768 S768x256 S256x256 [1] [0] [0] [1] [] []
  dot_S256x256_S256x12_S256x12_1_0_0_1_n_n_wf : DotDims.WF S256x256 S256x12 S256x12 [1] [0] [0] [1] [] []
  dot_S48x256_S256x12_S48x12_1_0_0_1_n_n_wf : DotDims.WF S48x256 S256x12 S48x12 [1] [0] [0] [1] [] []
  dot_S12x48_S48x65536_S12x65536_1_0_0_1_n_n_wf : DotDims.WF S12x48 S48x65536 S12x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S4x256x768.size a
  hwx0_0 : ∀ i : grid0.Coords, EltTy.bits .f32 = 32 ∨ (Rect.block (s := S4x256x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S4x256x256.size a
  hwx0_1 : ∀ i : grid0.Coords, EltTy.bits .i32 = 32 ∨ (Rect.block (s := S4x256x256) S1x256x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .f32 = 32 ∨ (Rect.block (s := S256x768) S256x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .f32 = 32 ∨ (Rect.block (s := S256x768) S256x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S48x256.size a ≤ S48x256.size a
  hwx0_6 : ∀ i : grid0.Coords, EltTy.bits .f32 = 32 ∨ (Rect.block (s := S48x256) S48x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S12x768.size a ≤ S12x768.size a
  hwx0_7 : ∀ i : grid0.Coords, EltTy.bits .f32 = 32 ∨ (Rect.block (s := S12x768) S12x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S12.size a ≤ S12.size a
  hwx0_8 : ∀ i : grid0.Coords, EltTy.bits .f32 = 32 ∨ (Rect.block (s := S12) S12.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x12x256.size a ≤ S4x256x12x256.size a
  hwx0_9 : ∀ i : grid0.Coords, EltTy.bits .f32 = 32 ∨ (Rect.block (s := S4x256x12x256) S1x256x12x256.size (cc0_transform_9 i) (hinb0_9 i)).WholeWords (EltTy.packing .f32)

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def dot_S256x256_S256x12_S256x12_1_0_0_1_n_n : DotDims S256x256 S256x12 S256x12 where
  lhsContracting := [1]
  rhsContracting := [0]
  lhsNonContracting := [0]
  rhsNonContracting := [1]
  lhsBatch := []
  rhsBatch := []
  wf := dot_S256x256_S256x12_S256x12_1_0_0_1_n_n_wf
def dot_S48x256_S256x12_S48x12_1_0_0_1_n_n : DotDims S48x256 S256x12 S48x12 where
  lhsContracting := [1]
  rhsContracting := [0]
  lhsNonContracting := [0]
  rhsNonContracting := [1]
  lhsBatch := []
  rhsBatch := []
  wf := dot_S48x256_S256x12_S48x12_1_0_0_1_n_n_wf
def dot_S12x48_S48x65536_S12x65536_1_0_0_1_n_n : DotDims S12x48 S48x65536 S12x65536 where
  lhsContracting := [1]
  rhsContracting := [0]
  lhsNonContracting := [0]
  rhsNonContracting := [1]
  lhsBatch := []
  rhsBatch := []
  wf := dot_S12x48_S48x65536_S12x65536_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S48x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S12x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S12.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x256x12x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x256x768 : Shape := ⟨3, ![4, 256, 768]⟩
abbrev S4x256x256 : Shape := ⟨3, ![4, 256, 256]⟩
abbrev S256x768 : Shape := ⟨2, ![256, 768]⟩
abbrev S256 : Shape := ⟨1, ![256]⟩
abbrev S48x256 : Shape := ⟨2, ![48, 256]⟩
abbrev S12x768 : Shape := ⟨2, ![12, 768]⟩
abbrev S12 : Shape := ⟨1, ![12]⟩
abbrev S1x1x256 : Shape := ⟨3, ![1, 1, 256]⟩
abbrev S12x256 : Shape := ⟨2, ![12, 256]⟩
abbrev S4x256x12 : Shape := ⟨3, ![4, 256, 12]⟩
abbrev S_ : Shape := ⟨0, ![]⟩
abbrev S4x256x256x1 : Shape := ⟨4, ![4, 256, 256, 1]⟩
abbrev S4x256x256x256 : Shape := ⟨4, ![4, 256, 256, 256]⟩
abbrev S4x256x256x12 : Shape := ⟨4, ![4, 256, 256, 12]⟩
abbrev S4x256x1x12 : Shape := ⟨4, ![4, 256, 1, 12]⟩
abbrev S4x1x256x12 : Shape := ⟨4, ![4, 1, 256, 12]⟩
abbrev S1x1x1x12 : Shape := ⟨4, ![1, 1, 1, 12]⟩
abbrev S4x256x12x256 : Shape := ⟨4, ![4, 256, 12, 256]⟩

abbrev nBuf : Space → Nat
  | .hbm => 42
  | .vmem => 0
  | .smem => 0
  | _ => 0

abbrev bufTy : (tb : Table) → Fin (tcTables nBuf tb) → BufTy
  | .hbm, ⟨0, _⟩ => ⟨S4x256x768, .f32⟩
  | .hbm, ⟨1, _⟩ => ⟨S4x256x256, .i32⟩
  | .hbm, ⟨2, _⟩ => ⟨S256x768, .f32⟩
  | .hbm, ⟨3, _⟩ => ⟨S256, .f32⟩
  | .hbm, ⟨4, _⟩ => ⟨S256x768, .f32⟩
  | .hbm, ⟨5, _⟩ => ⟨S256, .f32⟩
  | .hbm, ⟨6, _⟩ => ⟨S48x256, .f32⟩
  | .hbm, ⟨7, _⟩ => ⟨S12x768, .f32⟩
  | .hbm, ⟨8, _⟩ => ⟨S12, .f32⟩
  | .hbm, ⟨9, _⟩ => ⟨S4x256x256, .f32⟩
  | .hbm, ⟨10, _⟩ => ⟨S1x1x256, .f32⟩
  | .hbm, ⟨11, _⟩ => ⟨S4x256x256, .f32⟩
  | .hbm, ⟨12, _⟩ => ⟨S4x256x256, .f32⟩
  | .hbm, ⟨13, _⟩ => ⟨S4x256x256, .f32⟩
  | .hbm, ⟨14, _⟩ => ⟨S1x1x256, .f32⟩
  | .hbm, ⟨15, _⟩ => ⟨S4x256x256, .f32⟩
  | .hbm, ⟨16, _⟩ => ⟨S4x256x256, .f32⟩
  | .hbm, ⟨17, _⟩ => ⟨S12x256, .f32⟩
  | .hbm, ⟨18, _⟩ => ⟨S12x256, .f32⟩
  | .hbm, ⟨19, _⟩ => ⟨S12x256, .f32⟩
  | .hbm, ⟨20, _⟩ => ⟨S4x256x12, .f32⟩
  | .hbm, ⟨21, _⟩ => ⟨S4x256x12, .f32⟩
  | .hbm, ⟨22, _⟩ => ⟨S_, .i32⟩
  | .hbm, ⟨23, _⟩ => ⟨S4x256x256, .i32⟩
  | .hbm, ⟨24, _⟩ => ⟨S4x256x256, .i1⟩
  | .hbm, ⟨25, _⟩ => ⟨S_, .i32⟩
  | .hbm, ⟨26, _⟩ => ⟨S4x256x256, .i32⟩
  | .hbm, ⟨27, _⟩ => ⟨S4x256x256, .i32⟩
  | .hbm, ⟨28, _⟩ => ⟨S4x256x256, .i32⟩
  | .hbm, ⟨29, _⟩ => ⟨S4x256x256x1, .i32⟩
  | .hbm, ⟨30, _⟩ => ⟨S4x256x256x256, .f32⟩
  | .hbm, ⟨31, _⟩ => ⟨S4x256x256x12, .f32⟩
  | .hbm, ⟨32, _⟩ => ⟨S4x256x1x12, .f32⟩
  | .hbm, ⟨33, _⟩ => ⟨S4x256x256x12, .f32⟩
  | .hbm, ⟨34, _⟩ => ⟨S4x256x256x12, .f32⟩
  | .hbm, ⟨35, _⟩ => ⟨S4x1x256x12, .f32⟩
  | .hbm, ⟨36, _⟩ => ⟨S4x256x256x12, .f32⟩
  | .hbm, ⟨37, _⟩ => ⟨S4x256x256x12, .f32⟩
  | .hbm, ⟨38, _⟩ => ⟨S1x1x1x12, .f32⟩
  | .hbm, ⟨39, _⟩ => ⟨S4x256x256x12, .f32⟩
  | .hbm, ⟨40, _⟩ => ⟨S4x256x256x12, .f32⟩
  | .hbm, ⟨41, _⟩ => ⟨S4x256x12x256, .f32⟩
  | _, _ => ⟨S4x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x256x256_0_1_2 : S1x1x256.BroadcastsInDim S4x256x256 (![0, 1, 2] : Fin 3 → Fin S4x256x256.rank)
  slices_S12x768_S12x256_0_0 : S12x768.Slices ![0, 0] S12x256
  slices_S12x768_S12x256_0_256 : S12x768.Slices ![0, 256] S12x256
  slices_S12x768_S12x256_0_512 : S12x768.Slices ![0, 512] S12x256
  bcast_S_S4x256x256 : S_.BroadcastsInDim S4x256x256 (![] : Fin 0 → Fin S4x256x256.rank)
  bcast_S4x256x256_S4x256x256x1_0_1_2 : S4x256x256.BroadcastsInDim S4x256x256x1 (![0, 1, 2] : Fin 3 → Fin S4x256x256x1.rank)
  bcast_S4x256x12_S4x256x1x12_0_1_3 : S4x256x12.BroadcastsInDim S4x256x1x12 (![0, 1, 3] : Fin 3 → Fin S4x256x1x12.rank)
  bcast_S4x256x1x12_S4x256x256x12_0_1_2_3 : S4x256x1x12.BroadcastsInDim S4x256x256x12 (![0, 1, 2, 3] : Fin 4 → Fin S4x256x256x12.rank)
  bcast_S4x256x12_S4x1x256x12_0_2_3 : S4x256x12.BroadcastsInDim S4x1x256x12 (![0, 2, 3] : Fin 3 → Fin S4x1x256x12.rank)
  bcast_S4x1x256x12_S4x256x256x12_0_1_2_3 : S4x1x256x12.BroadcastsInDim S4x256x256x12 (![0, 1, 2, 3] : Fin 4 → Fin S4x256x256x12.rank)
  bcast_S12_S1x1x1x12_3 : S12.BroadcastsInDim S1x1x1x12 (![3] : Fin 1 → Fin S1x1x1x12.rank)
  bcast_S1x1x1x12_S4x256x256x12_0_1_2_3 : S1x1x1x12.BroadcastsInDim S4x256x256x12 (![0, 1, 2, 3] : Fin 4 → Fin S4x256x256x12.rank)
  transposes_S4x256x256x12_S4x256x12x256_0_1_3_2 : S4x256x256x12.Transposes [0, 1, 3, 2] S4x256x12x256
  dot_S4x256x768_S256x768_S4x256x256_2_1_01_0_n_n_wf : DotDims.WF S4x256x768 S256x768 S4x256x256 [2] [1] [0, 1] [0] [] []
  dot_S4x256x256_S12x256_S4x256x12_2_1_01_0_n_n_wf : DotDims.WF S4x256x256 S12x256 S4x256x12 [2] [1] [0, 1] [0] [] []
  gather_S48x256_S4x256x256x1_S4x256x256x256_3_0_n_n_0_3_1256_wf : GatherDims.WF S48x256 S4x256x256x1 S4x256x256x256 [3] [0] [] [0] [] 3 ![1, 256]
  dot_S4x256x256x256_S12x256_S4x256x256x12_3_1_012_0_n_n_wf : DotDims.WF S4x256x256x256 S12x256 S4x256x256x12 [3] [1] [0, 1, 2] [0] [] []

variable [Facts₀]

def dot_S4x256x768_S256x768_S4x256x256_2_1_01_0_n_n : DotDims S4x256x768 S256x768 S4x256x256 where
  lhsContracting := [2]
  rhsContracting := [1]
  lhsNonContracting := [0, 1]
  rhsNonContracting := [0]
  lhsBatch := []
  rhsBatch := []
  wf := dot_S4x256x768_S256x768_S4x256x256_2_1_01_0_n_n_wf
def dot_S4x256x256_S12x256_S4x256x12_2_1_01_0_n_n : DotDims S4x256x256 S12x256 S4x256x12 where
  lhsContracting := [2]
  rhsContracting := [1]
  lhsNonContracting := [0, 1]
  rhsNonContracting := [0]
  lhsBatch := []
  rhsBatch := []
  wf := dot_S4x256x256_S12x256_S4x256x12_2_1_01_0_n_n_wf
def gather_S48x256_S4x256x256x1_S4x256x256x256_3_0_n_n_0_3_1256 : GatherDims S48x256 S4x256x256x1 S4x256x256x256 where
  offsetDims := [3]
  collapsedSliceDims := [0]
  operandBatchingDims := []
  startIndicesBatchingDims := []
  startIndexMap := [0]
  indexVectorDim := 3
  sliceSizes := ![1, 256]
  wf := gather_S48x256_S4x256x256x1_S4x256x256x256_3_0_n_n_0_3_1256_wf
def dot_S4x256x256x256_S12x256_S4x256x256x12_3_1_012_0_n_n : DotDims S4x256x256x256 S12x256 S4x256x256x12 where
  lhsContracting := [3]
  rhsContracting := [1]
  lhsNonContracting := [0, 1, 2]
  rhsNonContracting := [0]
  lhsBatch := []
  rhsBatch := []
  wf := dot_S4x256x256x256_S12x256_S4x256x256x12_3_1_012_0_n_n_wf

class Facts : Prop extends Facts₀ where

variable [Facts]
-- ==== Proof.Spec.lean ====
/-
  The scores of a dependency-labelling layer, as ONE function of its nine argument arrays.

  For a batch member `b`, a head position `i`, a class `c` and a dependent position `j` the score is

      ⟨E[row D[b,i,j]], w_d[c]⟩ + ⟨s[b,i], w_s[c]⟩ + ⟨t[b,j], w_t[c]⟩ + CB[c],

  where `s[b,i] = X[b,i] · SWᵀ + SB` and `t[b,j] = X[b,j] · TWᵀ + TB` are two affine images of an input row, `E` is the
  table of the 48 label embeddings, `row` reads a label word as a row of that table (signed, below zero read as 0,
  above 47 read as 47), and `w_s | w_t | w_d` are the three consecutive blocks of 256 columns of the classifier's
  weight row `CW[c]`. Every sum is a finite sum of extended reals in a fixed order of its terms; no law beyond
  `x · 0 = 0`, `x · 1 = x` and `0 + x = x` is used below, so nothing here asks the entries to be finite.

  Two facts about words join the two programs to this function. One program selects the label's row by a matrix
  product with a ONE-HOT matrix (`hot`): the sum over the 48 rows of `P n · hot n w` is `P (row w)` (`sum_hot`).
  The other first replaces a negative word `w` by `w + 48` and then clamps: on a word that is not negative the
  replacement does nothing (`wrap_of_nonneg`), and the clamp is `row`.
-/
import Idealize.ShloMosaic.Lib.ValueIdx
import Idealize.ShloMosaic.Lib.WordArith
import Idealize.ShloMosaic.Lib.KernelVsHost

noncomputable section

open scoped BigOperators

namespace DepScores

open Idealize.ShloMosaic Idealize.ShloMosaic.ValueIdx

/-! ## The label's row -/

/-- The row of the 48-row table a label word selects: the word read as a signed integer, clamped into `[0, 47]`. -/
def row (w : BitVec 32) : Fin 48 := ⟨min w.toInt.toNat 47, by omega⟩

/-- The word clamped into `[0, 47]` by a signed maximum with 0 and a signed minimum with 47 is, as a natural number,
    that row. -/
theorem clip_toNat (w : BitVec 32) : (IntOp.minsi 47#32 (IntOp.maxsi 0#32 w)).toNat = (row w).val := by
  have hw : (IntOp.maxsi 0#32 w).toNat < 2 ^ 31 := by
    rw [WordArith.toNat_maxsi_zero]
    have e := BitVec.toInt_eq_toNat_cond w
    have := w.isLt
    split at e <;> omega
  rw [WordArith.toNat_minsi_of_lt _ _ (by decide) hw, WordArith.toNat_maxsi_zero]
  show min 47 w.toInt.toNat = min w.toInt.toNat 47
  exact min_comm _ _

/-- So the clamped word IS the row's number as a 32-bit word. -/
theorem clip_eq (w : BitVec 32) : IntOp.minsi 47#32 (IntOp.maxsi 0#32 w) = BitVec.ofNat 32 (row w).val := by
  apply BitVec.eq_of_toNat_eq
  rw [clip_toNat, BitVec.toNat_ofNat]
  have := (row w).isLt
  omega

/-! ## The one-hot column -/

/-- Entry `n` of the one-hot column of a label word: the comparison "row number `n` equals the clamped word", widened
    to a 32-bit word and read as a real number — 1 or 0. -/
def hot (n : Fin 48) (w : BitVec 32) : EReal :=
  ((((IntOp.cmpi .eq (BitVec.ofNat 32 n.val) (IntOp.minsi 47#32 (IntOp.maxsi 0#32 w))).setWidth 32).toInt : ℝ) : EReal)

/-- It is 1 at the label's row and 0 at every other row. -/
theorem hot_eq (n : Fin 48) (w : BitVec 32) : hot n w = if n = row w then 1 else 0 := by
  unfold hot
  rw [clip_eq, toInt_setWidth_bit]
  by_cases h : n = row w
  · rw [if_pos h, h]
    have e : IntOp.cmpi .eq (BitVec.ofNat 32 (row w).val) (BitVec.ofNat 32 (row w).val) = 1#1 := by
      unfold IntOp.cmpi; simp
    rw [e]; norm_num
  · rw [if_neg h]
    have hne : BitVec.ofNat 32 n.val ≠ BitVec.ofNat 32 (row w).val := by
      intro he
      have ht := congrArg BitVec.toNat he
      rw [BitVec.toNat_ofNat, BitVec.toNat_ofNat] at ht
      have h1 := n.isLt
      have h2 := (row w).isLt
      exact h (Fin.ext (by omega))
    have e : IntOp.cmpi .eq (BitVec.ofNat 32 n.val) (BitVec.ofNat 32 (row w).val) = 0#1 := by
      have hb : (BitVec.ofNat 32 n.val == BitVec.ofNat 32 (row w).val) = false := beq_eq_false_iff_ne.mpr hne
      unfold IntOp.cmpi
      rw [hb]
      rfl
    rw [e]; norm_num

/-- A sum over the 48 rows weighted by the one-hot column picks the label's row. -/
theorem sum_hot (P : Fin 48 → EReal) (w : BitVec 32) : ∑ n : Fin 48, P n * hot n w = P (row w) := by
  rw [Finset.sum_eq_single (row w)]
  · rw [hot_eq, if_pos rfl, mul_one]
  · intro n _ hn
    rw [hot_eq, if_neg hn, mul_zero]
  · intro h
    exact absurd (Finset.mem_univ _) h

/-! ## Counting a negative index from the end -/

/-- A word that is not negative is left alone by "if `w < 0` then `w + 48` else `w`". -/
theorem wrap_of_nonneg (w : BitVec 32) (h : IntOp.cmpi .sge w 0#32 = 1#1) :
    Scalar.select (IntOp.cmpi .slt w 0#32) (IntOp.addi w 48#32) w = w := by
  have h0 : (0#32 : BitVec 32).sle w = true := (WordArith.ofBool_eq_one_iff _).mp h
  have hs : w.slt 0#32 = false := by
    rw [BitVec.sle_eq_not_slt] at h0
    simpa using h0
  unfold IntOp.cmpi Scalar.select
  simp [hs]

/-! ## The scores -/

/-- The score at head `i`, class `c`, dependent `j` of ONE batch member, from that member's input rows `x` and label words
    `d` and the shared weights, every array given by its coordinates. -/
def core (x : Fin 256 → Fin 768 → EReal) (d : Fin 256 → Fin 256 → BitVec 32)
    (sw : Fin 256 → Fin 768 → EReal) (sb : Fin 256 → EReal) (tw : Fin 256 → Fin 768 → EReal) (tb : Fin 256 → EReal)
    (e : Fin 48 → Fin 256 → EReal) (cw : Fin 12 → Fin 768 → EReal) (cb : Fin 12 → EReal)
    (i : Fin 256) (c : Fin 12) (j : Fin 256) : EReal :=
  (((∑ h : Fin 256, e (row (d i j)) h * cw c ⟨512 + h.val, by have := h.isLt; omega⟩)
      + ∑ h : Fin 256, ((∑ k : Fin 768, x i k * sw h k) + sb h) * cw c ⟨h.val, by have := h.isLt; omega⟩)
      + ∑ h : Fin 256, ((∑ k : Fin 768, x j k * tw h k) + tb h) * cw c ⟨256 + h.val, by have := h.isLt; omega⟩)
    + cb c

/-- The whole result `[4, 256, 12, 256]` as a function of the nine argument arrays: entry `(b, i, c, j)` is the score of
    batch member `b`. -/
def G (X : (⟨3, ![4, 256, 768]⟩ : Shape).Idx → EReal) (D : (⟨3, ![4, 256, 256]⟩ : Shape).Idx → BitVec 32)
    (SW : (⟨2, ![256, 768]⟩ : Shape).Idx → EReal) (SB : (⟨1, ![256]⟩ : Shape).Idx → EReal)
    (TW : (⟨2, ![256, 768]⟩ : Shape).Idx → EReal) (TB : (⟨1, ![256]⟩ : Shape).Idx → EReal)
    (E : (⟨2, ![48, 256]⟩ : Shape).Idx → EReal) (CW : (⟨2, ![12, 768]⟩ : Shape).Idx → EReal)
    (CB : (⟨1, ![12]⟩ : Shape).Idx → EReal) : (⟨4, ![4, 256, 12, 256]⟩ : Shape).Idx → EReal :=
  fun q => core (fun i k => X (ix3 (q 0 : Fin 4) i k)) (fun i j => D (ix3 (q 0 : Fin 4) i j))
    (fun h k => SW (ix2 h k)) (fun h => SB (ix1 h)) (fun h k => TW (ix2 h k)) (fun h => TB (ix1 h))
    (fun n h => E (ix2 n h)) (fun c k => CW (ix2 c k)) (fun c => CB (ix1 c)) (q 1 : Fin 256) (q 2 : Fin 12) (q 3 : Fin 256)

end DepScores

end
-- ==== Proof.PlainMatmul.lean ====
/-
  A matrix product `[M, K] × [K, N]` into a zero accumulator, read at an entry over the extended reals: entry `(r, c)` is
  the sum over `q` of `lhs[r, q] · rhs[q, c]`, the terms in the order of `q`. The product's own contraction index is a
  one-coordinate tuple; the sum is re-indexed through the bijection of those tuples with `Fin K`.
-/
import Idealize.ShloMosaic.Lib.ValueIdx
import Idealize.ShloMosaic.PureOps.Ideal.Laws

noncomputable section

open scoped BigOperators

namespace DepScores

open Idealize.ShloMosaic Idealize.ShloMosaic.ValueIdx

/-- Entry `(r, c)` of a plain matrix product into the zero accumulator. `D` is any record of dimension numbers that IS the
    plain one (contract the left operand's columns with the right operand's rows). -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (r : Fin M) (c : Fin N) :
    matmul D prec lhs rhs (constant ⟨2, ![M, N]⟩ .f32 0x00000000#32) (ix2 r c)
      = ∑ q : Fin K, lhs (ix2 r q) * rhs (ix2 q c) := by
  subst hD
  simp only [matmul]
  rw [Ideal.matmul_constant_zero_apply, ← Equiv.sum_comp (contrEquiv1 (DotDims.plain M K N) K rfl rfl).symm]
  refine Finset.sum_congr rfl fun q _ => ?_
  have hk := contrEquiv1_symm_val (DotDims.plain M K N) K rfl rfl q
  have el : (DotDims.plain M K N).lhsIdx (ix2 r c) ((contrEquiv1 (DotDims.plain M K N) K rfl rfl).symm q) = ix2 r q :=
    funext fun a => Fin.ext (by
      match a with
      | ⟨0, _⟩ => rfl
      | ⟨1, _⟩ => exact hk)
  have er : (DotDims.plain M K N).rhsIdx (ix2 r c) ((contrEquiv1 (DotDims.plain M K N) K rfl rfl).symm q) = ix2 q c :=
    funext fun a => Fin.ext (by
      match a with
      | ⟨0, _⟩ => exact hk
      | ⟨1, _⟩ => rfl)
  rw [el, er]

end DepScores

end
-- ==== Proof.KernelEntry.lean ====
/-
  One block of the kernel's result, entry by entry.

  At a grid point the body reads one batch member's input rows `x0 : [1, 256, 768]` and label words `x1 : [1, 256, 256]`
  and the shared weights whole, and stores one block `[1, 256, 12, 256]`. Read at the entry `(0, i, c, j)` over the
  extended reals, where a change of float format is the identity, that block is the specification's `core` at
  `(i, c, j)` of those arrays:
  * the two affine images `x · SWᵀ + SB`, `x · TWᵀ + TB` and their products with the classifier's first two column
    blocks are matrix products into a zero accumulator, each a plain sum (`affine_apply`, `headScore_apply`,
    `depScoreT_apply`);
  * the label term is the product of the projected table `[12, 48]` (the 48 embeddings times the classifier's third
    column block, transposed) with the one-hot matrix `[48, 256·256]` of the clamped labels: entry `(c, i·256 + j)` is the
    sum over the 48 rows of `proj[n, c] · hot n (label i j)`, which picks the label's row (`Spec.sum_hot`);
  * the three remaining terms reach the entry through broadcasts along the axes they do not depend on.
-/
import proofs.«405840_j39779987096218_3_alg».proof.Proof.Gen.KernelIdeal.Skeleton
import proofs.«405840_j39779987096218_3_alg».proof.Proof.Spec
import proofs.«405840_j39779987096218_3_alg».proof.Proof.PlainMatmul
import Idealize.ShloMosaic.Lib.Pipeline.Value

noncomputable section

open scoped BigOperators

namespace DepScores.KernelSide

open Cert.KernelIdeal Cert.KernelIdeal.Gen Idealize.ShloMosaic Idealize.ShloMosaic.ValueIdx

/-! ## Layout pieces read at an entry -/

/-- The block's input rows with the leading unit axis dropped. -/
theorem rows_apply (x0 : Vec Ideal S1x256x768 .f32) (i : Fin 256) (k : Fin 768) :
    k0_pay2 (F := Ideal) x0 (ix2 i k) = x0 (ix3 (0 : Fin 1) i k) := by
  show shapeCast S256x768 x0 _ (ix2 i k) = _
  refine shapeCast_apply x0 _ (ix2 i k) (ix3 (0 : Fin 1) i k) ?_
  rw [Shape.rowMajor_val_three, Shape.rowMajor_val_two]
  show (0 * 256 + i.val) * 768 + k.val = i.val * 768 + k.val
  omega

/-- The block's label words with the leading unit axis dropped. -/
theorem labels_apply (x1 : Vec Ideal S1x256x256 .i32) (i j : Fin 256) :
    k0_pay6 (F := Ideal) x1 (ix2 i j) = x1 (ix3 (0 : Fin 1) i j) := by
  show shapeCast S256x256 x1 _ (ix2 i j) = _
  refine shapeCast_apply x1 _ (ix2 i j) (ix3 (0 : Fin 1) i j) ?_
  rw [Shape.rowMajor_val_three, Shape.rowMajor_val_two]
  show (0 * 256 + i.val) * 256 + j.val = i.val * 256 + j.val
  omega

/-- A block of 256 columns of the classifier's weights starting at column `o`, transposed: entry `(h, c)` is the weight
    of class `c` at column `o + h`. -/
theorem sliceT_apply (cw : Vec Ideal S12x768 .f32) (o : Nat) (hs : S12x768.Slices ![0, o] S12x256)
    (hlt : FTy.bits .bf16 < FTy.bits .f32) (ht : S12x256.Transposes [1, 0] S256x12) (h : Fin 256) (c : Fin 12)
    (q : Fin 768) (hq : q.val = o + h.val) :
    transpose S256x12 [1, 0] (truncf (F := Ideal) .bf16 (extractStridedSlice S12x256 ![0, o] cw hs) hlt) ht (ix2 h c)
      = cw (ix2 c q) := by
  refine (transpose_apply [1, 0] _ ht (ix2 h c) (ix2 c h) (fun b => match b with | ⟨0, _⟩ => rfl | ⟨1, _⟩ => rfl)).trans ?_
  show extractStridedSlice S12x256 ![0, o] cw hs (ix2 c h) = _
  exact extractStridedSlice_apply ![0, o] cw hs (ix2 c h) (ix2 c q) (fun a => match a with
    | ⟨0, _⟩ => by show c.val = 0 + c.val; omega
    | ⟨1, _⟩ => hq)

/-- A vector over the classes broadcast along heads and dependents. -/
theorem classBias_apply (b : Vec Ideal S12 .f32) (hc : S12.ShapeCasts S1x12x1) (hb : S1x12x1.Broadcasts S256x12x256)
    (i : Fin 256) (c : Fin 12) (j : Fin 256) :
    broadcastTo S256x12x256 (shapeCast S1x12x1 b hc) hb (ix3 i c j) = b (ix1 c) := by
  refine (broadcastTo_apply _ hb (ix3 i c j) (ix3 (0 : Fin 1) c (0 : Fin 1)) (fun a => match a with
    | ⟨0, _⟩ => by show 0 = if (1 : Nat) = 1 then 0 else i.val; rw [if_pos rfl]
    | ⟨1, _⟩ => by show c.val = if (12 : Nat) = 1 then 0 else c.val; rw [if_neg (by decide)]
    | ⟨2, _⟩ => by show 0 = if (1 : Nat) = 1 then 0 else j.val; rw [if_pos rfl])).trans ?_
  refine shapeCast_apply b hc (ix3 (0 : Fin 1) c (0 : Fin 1)) (ix1 c) ?_
  rw [Shape.rowMajor_val_one, Shape.rowMajor_val_three]
  show c.val = (0 * 12 + c.val) * 1 + 0
  omega

/-- A head-by-class matrix broadcast along dependents. -/
theorem headTerm_apply (v : FVec Ideal S256x12 .f32) (hc : S256x12.ShapeCasts S256x12x1)
    (hb : S256x12x1.Broadcasts S256x12x256) (i : Fin 256) (c : Fin 12) (j : Fin 256) :
    broadcastTo S256x12x256 (shapeCast S256x12x1 v hc) hb (ix3 i c j) = v (ix2 i c) := by
  refine (broadcastTo_apply _ hb (ix3 i c j) (ix3 i c (0 : Fin 1)) (fun a => match a with
    | ⟨0, _⟩ => by show i.val = if (256 : Nat) = 1 then 0 else i.val; rw [if_neg (by decide)]
    | ⟨1, _⟩ => by show c.val = if (12 : Nat) = 1 then 0 else c.val; rw [if_neg (by decide)]
    | ⟨2, _⟩ => by show 0 = if (1 : Nat) = 1 then 0 else j.val; rw [if_pos rfl])).trans ?_
  refine shapeCast_apply v hc (ix3 i c (0 : Fin 1)) (ix2 i c) ?_
  rw [Shape.rowMajor_val_two, Shape.rowMajor_val_three]
  show i.val * 12 + c.val = (i.val * 12 + c.val) * 1 + 0
  omega

/-- A dependent-by-class matrix, transposed and broadcast along heads. -/
theorem depTerm_apply (v : FVec Ideal S256x12 .f32) (ht : S256x12.Transposes [1, 0] S12x256)
    (hc : S12x256.ShapeCasts S1x12x256) (hb : S1x12x256.Broadcasts S256x12x256) (i : Fin 256) (c : Fin 12) (j : Fin 256) :
    broadcastTo S256x12x256 (shapeCast S1x12x256 (transpose S12x256 [1, 0] v ht) hc) hb (ix3 i c j) = v (ix2 j c) := by
  refine (broadcastTo_apply _ hb (ix3 i c j) (ix3 (0 : Fin 1) c j) (fun a => match a with
    | ⟨0, _⟩ => by show 0 = if (1 : Nat) = 1 then 0 else i.val; rw [if_pos rfl]
    | ⟨1, _⟩ => by show c.val = if (12 : Nat) = 1 then 0 else c.val; rw [if_neg (by decide)]
    | ⟨2, _⟩ => by show j.val = if (256 : Nat) = 1 then 0 else j.val; rw [if_neg (by decide)])).trans ?_
  refine (shapeCast_apply _ hc (ix3 (0 : Fin 1) c j) (ix2 c j) ?_).trans ?_
  · rw [Shape.rowMajor_val_two, Shape.rowMajor_val_three]
    show c.val * 256 + j.val = (0 * 12 + c.val) * 256 + j.val
    omega
  exact transpose_apply [1, 0] v ht (ix2 c j) (ix2 j c) (fun b => match b with | ⟨0, _⟩ => rfl | ⟨1, _⟩ => rfl)

/-! ## The affine images and the three score terms -/

/-- `xb · Wᵀ + bias` at `(i, h)`. -/
theorem affine_apply (xb : FVec Ideal S256x768 .bf16) (w : Vec Ideal S256x768 .f32) (bias : Vec Ideal S256 .f32)
    (hlt : FTy.bits .bf16 < FTy.bits .f32) (ht : S256x768.Transposes [1, 0] S768x256)
    (hc : S256.ShapeCasts S1x256) (hb : S1x256.Broadcasts S256x256) (i h : Fin 256) :
    addf (matmul dot_S256x768_S768x256_S256x256_1_0_0_1_n_n none xb
            (transpose S768x256 [1, 0] (truncf (F := Ideal) .bf16 w hlt) ht) (constant S256x256 .f32 0x00000000#32))
         (broadcastTo S256x256 (shapeCast S1x256 bias hc) hb) (ix2 i h)
      = (∑ k : Fin 768, xb (ix2 i k) * w (ix2 h k)) + bias (ix1 h) := by
  rw [addf_apply, matmul_plain_apply dot_S256x768_S768x256_S256x256_1_0_0_1_n_n rfl]
  congr 1
  · refine Finset.sum_congr rfl fun k _ => ?_
    congr 1
    exact transpose_apply [1, 0] _ ht (ix2 k h) (ix2 h k) (fun b => match b with | ⟨0, _⟩ => rfl | ⟨1, _⟩ => rfl)
  · refine (broadcastTo_apply _ hb (ix2 i h) (ix2 (0 : Fin 1) h) (fun a => match a with
      | ⟨0, _⟩ => by show 0 = if (1 : Nat) = 1 then 0 else i.val; rw [if_pos rfl]
      | ⟨1, _⟩ => by show h.val = if (256 : Nat) = 1 then 0 else h.val; rw [if_neg (by decide)])).trans ?_
    refine shapeCast_apply bias hc (ix2 (0 : Fin 1) h) (ix1 h) ?_
    rw [Shape.rowMajor_val_one, Shape.rowMajor_val_two]
    show h.val = 0 * 256 + h.val
    omega

/-- The head term: the affine image of row `i` against the classifier's columns `0 … 255`. -/
theorem headScore_apply (x0 : Vec Ideal S1x256x768 .f32) (sw : Vec Ideal S256x768 .f32) (sb : Vec Ideal S256 .f32)
    (cw : Vec Ideal S12x768 .f32) (i : Fin 256) (c : Fin 12) :
    k0_pay3 (F := Ideal) x0 sw sb cw (ix2 i c)
      = ∑ h : Fin 256, ((∑ k : Fin 768, x0 (ix3 (0 : Fin 1) i k) * sw (ix2 h k)) + sb (ix1 h))
          * cw (ix2 c ⟨h.val, by have := h.isLt; omega⟩) := by
  unfold k0_pay3
  dsimp only
  rw [matmul_plain_apply dot_S256x256_S256x12_S256x12_1_0_0_1_n_n rfl]
  refine Finset.sum_congr rfl fun h _ => ?_
  congr 1
  · refine (affine_apply (k0_pay2 x0) sw sb _ _ _ _ i h).trans ?_
    congr 1
    exact Finset.sum_congr rfl fun k _ => by rw [rows_apply]
  · exact sliceT_apply cw 0 _ _ _ h c _ (Nat.zero_add _).symm

/-- The dependent term: the second affine image of row `j` against the classifier's columns `256 … 511`. -/
theorem depScore_apply (x0 : Vec Ideal S1x256x768 .f32) (tw : Vec Ideal S256x768 .f32) (tb : Vec Ideal S256 .f32)
    (cw : Vec Ideal S12x768 .f32) (j : Fin 256) (c : Fin 12) :
    k0_pay4 (F := Ideal) x0 tw tb cw (ix2 j c)
      = ∑ h : Fin 256, ((∑ k : Fin 768, x0 (ix3 (0 : Fin 1) j k) * tw (ix2 h k)) + tb (ix1 h))
          * cw (ix2 c ⟨256 + h.val, by have := h.isLt; omega⟩) := by
  unfold k0_pay4
  dsimp only
  rw [matmul_plain_apply dot_S256x256_S256x12_S256x12_1_0_0_1_n_n rfl]
  refine Finset.sum_congr rfl fun h _ => ?_
  congr 1
  · refine (affine_apply (k0_pay2 x0) tw tb _ _ _ _ j h).trans ?_
    congr 1
    exact Finset.sum_congr rfl fun k _ => by rw [rows_apply]
  · exact sliceT_apply cw 256 _ _ _ h c _ rfl

/-- The projected table: embedding `n` against the classifier's columns `512 … 767`. -/
theorem labelProj_apply (cw : Vec Ideal S12x768 .f32) (e : Vec Ideal S48x256 .f32) (n : Fin 48) (c : Fin 12) :
    k0_pay5 (F := Ideal) cw e (ix2 n c)
      = ∑ h : Fin 256, e (ix2 n h) * cw (ix2 c ⟨512 + h.val, by have := h.isLt; omega⟩) := by
  unfold k0_pay5
  dsimp only
  rw [matmul_plain_apply dot_S48x256_S256x12_S48x12_1_0_0_1_n_n rfl]
  refine Finset.sum_congr rfl fun h _ => ?_
  congr 1
  exact sliceT_apply cw 512 _ _ _ h c _ rfl

/-! ## The one-hot matrix and the assembled block -/

/-- The one-hot matrix `[48, 256·256]` of the clamped labels at row `n`, column `i·256 + j`. -/
theorem onehot_apply (lab : IVec S256x256 32) (hi : S48x256x256.Iotas .tc 32 [0]) (hc : S256x256.ShapeCasts S1x256x256)
    (hb : S1x256x256.Broadcasts S48x256x256) (hw : 1 < 32) (hlt : FTy.bits .bf16 < FTy.bits .f32)
    (hc2 : S48x256x256.ShapeCasts S48x65536) (n : Fin 48) (i j : Fin 256) (p : Fin 65536) (hp : p.val = i.val * 256 + j.val) :
    shapeCast S48x65536 (truncf (F := Ideal) .bf16 (sitofp .f32 (extui 32 (cmpi .eq (iota .tc S48x256x256 32 [0] hi)
        (broadcastTo S48x256x256 (shapeCast S1x256x256 (minsi (broadcast S256x256 47#32) (maxsi (broadcast S256x256 0#32) lab)) hc) hb)) hw)) hlt)
      hc2 (ix2 n p) = hot n (lab (ix2 i j)) := by
  refine (shapeCast_apply _ hc2 (ix2 n p) (ix3 n i j) ?_).trans ?_
  · rw [Shape.rowMajor_val_two, Shape.rowMajor_val_three]
    show (n.val * 256 + i.val) * 256 + j.val = n.val * 65536 + p.val
    omega
  show ((((IntOp.cmpi .eq (iota .tc S48x256x256 32 [0] hi (ix3 n i j))
      (broadcastTo S48x256x256 (shapeCast S1x256x256 (minsi (broadcast S256x256 47#32) (maxsi (broadcast S256x256 0#32) lab)) hc) hb
        (ix3 n i j))).setWidth 32).toInt : ℝ) : EReal) = _
  rw [iota_single_apply, broadcastTo_apply _ hb (ix3 n i j) (ix3 (0 : Fin 1) i j) (fun a => match a with
    | ⟨0, _⟩ => by show 0 = if (1 : Nat) = 1 then 0 else n.val; rw [if_pos rfl]
    | ⟨1, _⟩ => by show i.val = if (256 : Nat) = 1 then 0 else i.val; rw [if_neg (by decide)]
    | ⟨2, _⟩ => by show j.val = if (256 : Nat) = 1 then 0 else j.val; rw [if_neg (by decide)]),
    shapeCast_apply _ hc (ix3 (0 : Fin 1) i j) (ix2 i j) (by
      rw [Shape.rowMajor_val_two, Shape.rowMajor_val_three]
      show i.val * 256 + j.val = (0 * 256 + i.val) * 256 + j.val
      omega)]
  rfl

/-- The stored block at `(0, i, c, j)` from the four computed pieces and the bias. -/
theorem scores_apply (v29 v31 : FVec Ideal S256x12 .f32) (v35 : FVec Ideal S48x12 .f32) (v37 : IVec S256x256 32)
    (v55 : Vec Ideal S12 .f32) (i : Fin 256) (c : Fin 12) (j : Fin 256) :
    k0_pay1 (F := Ideal) v29 v31 v35 v37 v55 (ix4 (0 : Fin 1) i c j)
      = (((∑ n : Fin 48, v35 (ix2 n c) * hot n (v37 (ix2 i j))) + v29 (ix2 i c)) + v31 (ix2 j c)) + v55 (ix1 c) := by
  unfold k0_pay1
  dsimp only
  refine (shapeCast_apply _ _ (ix4 (0 : Fin 1) i c j) (ix3 i c j) ?_).trans ?_
  · rw [Shape.rowMajor_val_three, Shape.rowMajor_val_four]
    show (i.val * 12 + c.val) * 256 + j.val = ((0 * 256 + i.val) * 12 + c.val) * 256 + j.val
    omega
  rw [addf_apply, addf_apply, addf_apply, classBias_apply, depTerm_apply, headTerm_apply]
  congr 3
  refine (transpose_apply [1, 0, 2] _ _ (ix3 i c j) (ix3 c i j)
    (fun b => match b with | ⟨0, _⟩ => rfl | ⟨1, _⟩ => rfl | ⟨2, _⟩ => rfl)).trans ?_
  refine (shapeCast_apply _ _ (ix3 c i j) (ix2 c (⟨i.val * 256 + j.val, by have := i.isLt; have := j.isLt; omega⟩ : Fin 65536)) ?_).trans ?_
  · rw [Shape.rowMajor_val_two, Shape.rowMajor_val_three]
    show c.val * 65536 + (i.val * 256 + j.val) = (c.val * 256 + i.val) * 256 + j.val
    omega
  rw [matmul_plain_apply dot_S12x48_S48x65536_S12x65536_1_0_0_1_n_n rfl]
  refine Finset.sum_congr rfl fun n _ => ?_
  congr 1
  · exact transpose_apply [1, 0] _ _ (ix2 c n) (ix2 n c) (fun b => match b with | ⟨0, _⟩ => rfl | ⟨1, _⟩ => rfl)
  · exact onehot_apply v37 _ _ _ _ _ _ n i j _ rfl

/-- THE BLOCK, ENTRY BY ENTRY: the body's stored value at `(0, i, c, j)`, from the blocks it loads, is the
    specification's score of that batch member. -/
theorem block_apply (x0 : Vec Ideal S1x256x768 .f32) (x1 : Vec Ideal S1x256x256 .i32) (x2 : Vec Ideal S256x768 .f32)
    (x3 : Vec Ideal S256 .f32) (x4 : Vec Ideal S256x768 .f32) (x5 : Vec Ideal S256 .f32) (x6 : Vec Ideal S48x256 .f32)
    (x7 : Vec Ideal S12x768 .f32) (x8 : Vec Ideal S12 .f32) (i : Fin 256) (c : Fin 12) (j : Fin 256) :
    k0_pay1 (F := Ideal) (k0_pay3 x0 x2 x3 x7) (k0_pay4 x0 x4 x5 x7) (k0_pay5 x7 x6) (k0_pay6 x1) x8 (ix4 (0 : Fin 1) i c j)
      = core (fun i k => x0 (ix3 (0 : Fin 1) i k)) (fun i j => x1 (ix3 (0 : Fin 1) i j)) (fun h k => x2 (ix2 h k))
          (fun h => x3 (ix1 h)) (fun h k => x4 (ix2 h k)) (fun h => x5 (ix1 h)) (fun n h => x6 (ix2 n h))
          (fun c k => x7 (ix2 c k)) (fun c => x8 (ix1 c)) i c j := by
  rw [scores_apply, labels_apply, sum_hot (fun n => k0_pay5 x7 x6 (ix2 n c)), labelProj_apply, headScore_apply,
    depScore_apply]
  rfl

end DepScores.KernelSide

end
-- ==== Proof.KernelArray.lean ====
/-
  From the blocks to the array: what the kernel's result array holds after the run.

  The grid has one point per batch member. At point `t` the input rows and the label words are block `t` of their arrays
  along the batch axis, the seven weight arrays are read whole, and the stored block `[1, 256, 12, 256]` is written
  back as block `t` of the result along the batch axis. So what point `t` writes back is block `t` of the specification
  `G` of the argument arrays (`flushed_eq`: the block's entry `(0, i, c, j)` is `core` of batch member `t`, and `G` at
  `(t, i, c, j)` is by definition `core` of batch member `t`); the four blocks cover the result (`cover`: entry
  `(b, i, c, j)` lies in the block of the point whose batch index is `b`); hence the array after the run IS `G` of the
  argument arrays (`final`), the arguments unchanged (`run`).
-/
import proofs.«405840_j39779987096218_3_alg».proof.Proof.Gen.KernelIdeal.Value
import proofs.«405840_j39779987096218_3_alg».proof.Proof.KernelEntry

noncomputable section

open scoped BigOperators

namespace DepScores.KernelArray

open Cert.KernelIdeal Cert.KernelIdeal.Gen Cert.KernelIdeal.Value Idealize.ShloMosaic Idealize.ShloMosaic.TcCoe
  Idealize.SL.Sem Idealize.ShloMosaic.ValueIdx DepScores.KernelSide
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The stored block, at any of its entries -/

/-- The body's one store covers its whole block and its loads read whole blocks, so the block it leaves is the
    payload; at entry `y = (0, i, c, j)` that is the specification's score. -/
theorem out_entry (x0 : Vec Ideal S1x256x768 .f32) (x1 : Vec Ideal S1x256x256 .i32) (x2 : Vec Ideal S256x768 .f32)
    (x3 : Vec Ideal S256 .f32) (x4 : Vec Ideal S256x768 .f32) (x5 : Vec Ideal S256 .f32) (x6 : Vec Ideal S48x256 .f32)
    (x7 : Vec Ideal S12x768 .f32) (x8 : Vec Ideal S12 .f32) (y : S1x256x12x256.Idx) :
    out0_9 (F := Ideal) x0 x1 x2 x3 x4 x5 x6 x7 x8 y
      = core (fun i k => x0 (ix3 (0 : Fin 1) i k)) (fun i j => x1 (ix3 (0 : Fin 1) i j)) (fun h k => x2 (ix2 h k))
          (fun h => x3 (ix1 h)) (fun h k => x4 (ix2 h k)) (fun h => x5 (ix1 h)) (fun n h => x6 (ix2 n h))
          (fun c k => x7 (ix2 c k)) (fun c => x8 (ix1 c)) (y 1 : Fin 256) (y 2 : Fin 12) (y 3 : Fin 256) := by
  have hy : y = ix4 (0 : Fin 1) (y 1 : Fin 256) (y 2 : Fin 12) (y 3 : Fin 256) := by
    funext a
    match a with
    | ⟨0, _⟩ => exact Fin.ext (by have h0 : (y 0).val < 1 := (y 0).isLt; show (y 0).val = 0; omega)
    | ⟨1, _⟩ => rfl
    | ⟨2, _⟩ => rfl
    | ⟨3, _⟩ => rfl
  unfold out0_9
  rw [View.canon_unit_zero hz4]
  simp only [View.ld_unit_zero (S := S1x256x768) hz3, View.ld_unit_zero (S := S1x256x256) hz3,
    View.ld_unit_zero (S := S256x768) hz2, View.ld_unit_zero (S := S256) hz1, View.ld_unit_zero (S := S48x256) hz2,
    View.ld_unit_zero (S := S12x768) hz2, View.ld_unit_zero (S := S12) hz1]
  refine (congrArg _ hy).trans ?_
  exact block_apply x0 x1 x2 x3 x4 x5 x6 x7 x8 (y 1) (y 2) (y 3)

/-! ## The index maps over the grid -/

/-- Decided over the four grid points: the two per-member windows and the result window sit at the point's batch index on
    the batch axis and at block 0 on every other axis; the seven weight windows always sit at block 0. -/
theorem idx_facts : ∀ t : Fin cfg0.N,
    win0_0.index t (0 : Fin 3) = win0_9.index t (0 : Fin 4) ∧ win0_0.index t (1 : Fin 3) = 0 ∧ win0_0.index t (2 : Fin 3) = 0
    ∧ win0_1.index t (0 : Fin 3) = win0_9.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (1 : Fin 4) = 0 ∧ win0_9.index t (2 : Fin 4) = 0 ∧ win0_9.index t (3 : Fin 4) = 0
    ∧ win0_9.index t (0 : Fin 4) < 4 :=
  (by decide +kernel : ∀ t : Fin grid0.N, _)

/-- Every batch index is some point's. -/
theorem idx_onto : ∀ q : Fin 4, ∃ t : Fin cfg0.N, win0_9.index t (0 : Fin 4) = q.val :=
  (by decide +kernel : ∀ q : Fin 4, ∃ t : Fin grid0.N, win0_9.index t (0 : Fin 4) = q.val)

/-! ## Each window's block at a point, read off its array -/

theorem rows_blk (c : Dev nD) (t : Fin cfg0.N) (b : Fin 4) (hb : b.val = win0_9.index t (0 : Fin 4)) (i : Fin 256) (k : Fin 768) :
    iblk m c 0 t (ix3 (0 : Fin 1) i k) = V m c main_arg0 (ix3 b i k) := by
  obtain ⟨e00, e01, e02, -⟩ := idx_facts t
  show V m c main_arg0 (((cfg0.win 0).blk t).view.emb (ix3 (0 : Fin 1) i k)) = V m c main_arg0 (ix3 b i k)
  congr 1
  funext a; apply Fin.ext
  match a with
  | ⟨0, _⟩ => show win0_0.index t (0 : Fin 3) * 1 + 1 * 0 = b.val; omega
  | ⟨1, _⟩ => show win0_0.index t (1 : Fin 3) * 256 + 1 * i.val = i.val; omega
  | ⟨2, _⟩ => show win0_0.index t (2 : Fin 3) * 768 + 1 * k.val = k.val; omega

theorem labels_blk (c : Dev nD) (t : Fin cfg0.N) (b : Fin 4) (hb : b.val = win0_9.index t (0 : Fin 4)) (i j : Fin 256) :
    iblk m c 1 t (ix3 (0 : Fin 1) i j) = V m c main_arg1 (ix3 b i j) := by
  obtain ⟨-, -, -, e10, e11, e12, -⟩ := idx_facts t
  show V m c main_arg1 (((cfg0.win 1).blk t).view.emb (ix3 (0 : Fin 1) i j)) = V m c main_arg1 (ix3 b i j)
  congr 1
  funext a; apply Fin.ext
  match a with
  | ⟨0, _⟩ => show win0_1.index t (0 : Fin 3) * 1 + 1 * 0 = b.val; omega
  | ⟨1, _⟩ => show win0_1.index t (1 : Fin 3) * 256 + 1 * i.val = i.val; omega
  | ⟨2, _⟩ => show win0_1.index t (2 : Fin 3) * 256 + 1 * j.val = j.val; omega

theorem sw_blk (c : Dev nD) (t : Fin cfg0.N) (h : Fin 256) (k : Fin 768) :
    iblk m c 2 t (ix2 h k) = V m c main_arg2 (ix2 h k) := by
  obtain ⟨-, -, -, -, -, -, e20, e21, -⟩ := idx_facts t
  show V m c main_arg2 (((cfg0.win 2).blk t).view.emb (ix2 h k)) = V m c main_arg2 (ix2 h k)
  congr 1
  funext a; apply Fin.ext
  match a with
  | ⟨0, _⟩ => show win0_2.index t (0 : Fin 2) * 256 + 1 * h.val = h.val; omega
  | ⟨1, _⟩ => show win0_2.index t (1 : Fin 2) * 768 + 1 * k.val = k.val; omega

theorem sb_blk (c : Dev nD) (t : Fin cfg0.N) (h : Fin 256) :
    iblk m c 3 t (ix1 h) = V m c main_arg3 (ix1 h) := by
  obtain ⟨-, -, -, -, -, -, -, -, e30, -⟩ := idx_facts t
  show V m c main_arg3 (((cfg0.win 3).blk t).view.emb (ix1 h)) = V m c main_arg3 (ix1 h)
  congr 1
  funext a; apply Fin.ext
  match a with
  | ⟨0, _⟩ => show win0_3.index t (0 : Fin 1) * 256 + 1 * h.val = h.val; omega

theorem tw_blk (c : Dev nD) (t : Fin cfg0.N) (h : Fin 256) (k : Fin 768) :
    iblk m c 4 t (ix2 h k) = V m c main_arg4 (ix2 h k) := by
  obtain ⟨-, -, -, -, -, -, -, -, -, e40, e41, -⟩ := idx_facts t
  show V m c main_arg4 (((cfg0.win 4).blk t).view.emb (ix2 h k)) = V m c main_arg4 (ix2 h k)
  congr 1
  funext a; apply Fin.ext
  match a with
  | ⟨0, _⟩ => show win0_4.index t (0 : Fin 2) * 256 + 1 * h.val = h.val; omega
  | ⟨1, _⟩ => show win0_4.index t (1 : Fin 2) * 768 + 1 * k.val = k.val; omega

theorem tb_blk (c : Dev nD) (t : Fin cfg0.N) (h : Fin 256) :
    iblk m c 5 t (ix1 h) = V m c main_arg5 (ix1 h) := by
  obtain ⟨-, -, -, -, -, -, -, -, -, -, -, e50, -⟩ := idx_facts t
  show V m c main_arg5 (((cfg0.win 5).blk t).view.emb (ix1 h)) = V m c main_arg5 (ix1 h)
  congr 1
  funext a; apply Fin.ext
  match a with
  | ⟨0, _⟩ => show win0_5.index t (0 : Fin 1) * 256 + 1 * h.val = h.val; omega

theorem emb_blk (c : Dev nD) (t : Fin cfg0.N) (n : Fin 48) (h : Fin 256) :
    iblk m c 6 t (ix2 n h) = V m c main_arg6 (ix2 n h) := by
  obtain ⟨-, -, -, -, -, -, -, -, -, -, -, -, e60, e61, -⟩ := idx_facts t
  show V m c main_arg6 (((cfg0.win 6).blk t).view.emb (ix2 n h)) = V m c main_arg6 (ix2 n h)
  congr 1
  funext a; apply Fin.ext
  match a with
  | ⟨0, _⟩ => show win0_6.index t (0 : Fin 2) * 48 + 1 * n.val = n.val; omega
  | ⟨1, _⟩ => show win0_6.index t (1 : Fin 2) * 256 + 1 * h.val = h.val; omega

theorem cw_blk (c : Dev nD) (t : Fin cfg0.N) (cl : Fin 12) (k : Fin 768) :
    iblk m c 7 t (ix2 cl k) = V m c main_arg7 (ix2 cl k) := by
  obtain ⟨-, -, -, -, -, -, -, -, -, -, -, -, -, -, e70, e71, -⟩ := idx_facts t
  show V m c main_arg7 (((cfg0.win 7).blk t).view.emb (ix2 cl k)) = V m c main_arg7 (ix2 cl k)
  congr 1
  funext a; apply Fin.ext
  match a with
  | ⟨0, _⟩ => show win0_7.index t (0 : Fin 2) * 12 + 1 * cl.val = cl.val; omega
  | ⟨1, _⟩ => show win0_7.index t (1 : Fin 2) * 768 + 1 * k.val = k.val; omega

theorem cb_blk (c : Dev nD) (t : Fin cfg0.N) (cl : Fin 12) :
    iblk m c 8 t (ix1 cl) = V m c main_arg8 (ix1 cl) := by
  obtain ⟨-, -, -, -, -, -, -, -, -, -, -, -, -, -, -, -, e80, -⟩ := idx_facts t
  show V m c main_arg8 (((cfg0.win 8).blk t).view.emb (ix1 cl)) = V m c main_arg8 (ix1 cl)
  congr 1
  funext a; apply Fin.ext
  match a with
  | ⟨0, _⟩ => show win0_8.index t (0 : Fin 1) * 12 + 1 * cl.val = cl.val; omega

/-! ## What a point writes back, the cover, the array -/

/-- The specification of the argument arrays as the region finds them. -/
abbrev GA (c : Dev nD) : S4x256x12x256.Idx → EReal :=
  G (V m c main_arg0) (V m c main_arg1) (V m c main_arg2) (V m c main_arg3) (V m c main_arg4) (V m c main_arg5)
    (V m c main_arg6) (V m c main_arg7) (V m c main_arg8)

/-- WHAT POINT `t` WRITES BACK is block `t` of the specification. -/
theorem flushed_eq (c : Dev nD) (t : Fin cfg0.N) :
    (dats m 0 c).flushed 9 t = ((cfg0.win 9).blk t).view.read (Elt Ideal) (GA m c) := by
  rw [flushed9]
  obtain ⟨-, -, -, -, -, -, -, -, -, -, -, -, -, -, -, -, -, e91, e92, e93, e9lt⟩ := idx_facts t
  funext y
  refine (out_entry (iblk m c 0 t) (iblk m c 1 t) (iblk m c 2 t) (iblk m c 3 t) (iblk m c 4 t) (iblk m c 5 t)
    (iblk m c 6 t) (iblk m c 7 t) (iblk m c 8 t) y).trans ?_
  have hy0 : (y 0).val < 1 := (y 0).isLt
  have q0 : ((((cfg0.win 9).blk t).view.emb y) 0 : Fin 4) = (⟨win0_9.index t (0 : Fin 4), e9lt⟩ : Fin 4) :=
    Fin.ext (by show win0_9.index t (0 : Fin 4) * 1 + 1 * (y 0).val = win0_9.index t (0 : Fin 4); omega)
  have q1 : ((((cfg0.win 9).blk t).view.emb y) 1 : Fin 256) = (y 1 : Fin 256) :=
    Fin.ext (by show win0_9.index t (1 : Fin 4) * 256 + 1 * (y 1).val = (y 1).val; omega)
  have q2 : ((((cfg0.win 9).blk t).view.emb y) 2 : Fin 12) = (y 2 : Fin 12) :=
    Fin.ext (by show win0_9.index t (2 : Fin 4) * 12 + 1 * (y 2).val = (y 2).val; omega)
  have q3 : ((((cfg0.win 9).blk t).view.emb y) 3 : Fin 256) = (y 3 : Fin 256) :=
    Fin.ext (by show win0_9.index t (3 : Fin 4) * 256 + 1 * (y 3).val = (y 3).val; omega)
  show _ = core (fun i k => V m c main_arg0 (ix3 ((((cfg0.win 9).blk t).view.emb y) 0 : Fin 4) i k))
      (fun i j => V m c main_arg1 (ix3 ((((cfg0.win 9).blk t).view.emb y) 0 : Fin 4) i j))
      (fun h k => V m c main_arg2 (ix2 h k)) (fun h => V m c main_arg3 (ix1 h)) (fun h k => V m c main_arg4 (ix2 h k))
      (fun h => V m c main_arg5 (ix1 h)) (fun n h => V m c main_arg6 (ix2 n h)) (fun cl k => V m c main_arg7 (ix2 cl k))
      (fun cl => V m c main_arg8 (ix1 cl)) ((((cfg0.win 9).blk t).view.emb y) 1 : Fin 256)
      ((((cfg0.win 9).blk t).view.emb y) 2 : Fin 12) ((((cfg0.win 9).blk t).view.emb y) 3 : Fin 256)
  rw [q0, q1, q2, q3]
  have f0 : (fun (i : Fin 256) (k : Fin 768) => iblk m c 0 t (ix3 (0 : Fin 1) i k))
      = fun i k => V m c main_arg0 (ix3 (⟨win0_9.index t (0 : Fin 4), e9lt⟩ : Fin 4) i k) :=
    funext fun i => funext fun k => rows_blk m c t _ rfl i k
  have f1 : (fun (i j : Fin 256) => iblk m c 1 t (ix3 (0 : Fin 1) i j))
      = fun i j => V m c main_arg1 (ix3 (⟨win0_9.index t (0 : Fin 4), e9lt⟩ : Fin 4) i j) :=
    funext fun i => funext fun j => labels_blk m c t _ rfl i j
  have f2 : (fun (h : Fin 256) (k : Fin 768) => iblk m c 2 t (ix2 h k)) = fun h k => V m c main_arg2 (ix2 h k) :=
    funext fun h => funext fun k => sw_blk m c t h k
  have f3 : (fun (h : Fin 256) => iblk m c 3 t (ix1 h)) = fun h => V m c main_arg3 (ix1 h) :=
    funext fun h => sb_blk m c t h
  have f4 : (fun (h : Fin 256) (k : Fin 768) => iblk m c 4 t (ix2 h k)) = fun h k => V m c main_arg4 (ix2 h k) :=
    funext fun h => funext fun k => tw_blk m c t h k
  have f5 : (fun (h : Fin 256) => iblk m c 5 t (ix1 h)) = fun h => V m c main_arg5 (ix1 h) :=
    funext fun h => tb_blk m c t h
  have f6 : (fun (n : Fin 48) (h : Fin 256) => iblk m c 6 t (ix2 n h)) = fun n h => V m c main_arg6 (ix2 n h) :=
    funext fun n => funext fun h => emb_blk m c t n h
  have f7 : (fun (cl : Fin 12) (k : Fin 768) => iblk m c 7 t (ix2 cl k)) = fun cl k => V m c main_arg7 (ix2 cl k) :=
    funext fun cl => funext fun k => cw_blk m c t cl k
  have f8 : (fun (cl : Fin 12) => iblk m c 8 t (ix1 cl)) = fun cl => V m c main_arg8 (ix1 cl) :=
    funext fun cl => cb_blk m c t cl
  rw [f0, f1, f2, f3, f4, f5, f6, f7, f8]

/-- An entry of the result is in point `t`'s block iff each coordinate is in the block's range on its axis. -/
theorem mem_blk (t : Fin cfg0.N) (i : S4x256x12x256.Idx) :
    i ∈ ((cfg0.win 9).blk t).view.set ↔ ∀ a : Fin 4, win0_9.index t a * S1x256x12x256.size a ≤ (i a).val
      ∧ (i a).val < win0_9.index t a * S1x256x12x256.size a + S1x256x12x256.size a := by
  show i ∈ ((View.whole main_v0).slice (win0_9.rect t)).set ↔ _
  rw [View.set_slice_whole, Rect.mem_set_unit]
  exact Iff.rfl

/-- THE COVER: every entry `(b, i, c, j)` of the result lies in the block of the point whose batch index is `b`. -/
theorem cover (i : S4x256x12x256.Idx) :
    ∃ t : Fin cfg0.N, (cfg0.win 9).flush t = true ∧ i ∈ ((cfg0.win 9).blk t).view.set := by
  obtain ⟨t, ht⟩ := idx_onto ⟨(i 0).val, (i 0).isLt⟩
  obtain ⟨-, -, -, -, -, -, -, -, -, -, -, -, -, -, -, -, -, e91, e92, e93, -⟩ := idx_facts t
  have ht' : win0_9.index t (0 : Fin 4) = (i 0).val := ht
  have h1 : (i 1).val < 256 := (i 1).isLt
  have h2 : (i 2).val < 12 := (i 2).isLt
  have h3 : (i 3).val < 256 := (i 3).isLt
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 256 ≤ (i 1).val ∧ (i 1).val < win0_9.index t (1 : Fin 4) * 256 + 256; omega
  | ⟨2, _⟩ => show win0_9.index t (2 : Fin 4) * 12 ≤ (i 2).val ∧ (i 2).val < win0_9.index t (2 : Fin 4) * 12 + 12; omega
  | ⟨3, _⟩ => show win0_9.index t (3 : Fin 4) * 256 ≤ (i 3).val ∧ (i 3).val < win0_9.index t (3 : Fin 4) * 256 + 256; omega

/-- THE ARRAY after the run is the specification of the argument arrays. -/
theorem final (c : Dev nD) : (dats m 0 c).arrAt 9 cfg0.N = GA m c :=
  (dats m 0 c).arrAt_eq_of_cover 9 (GA m c) (fun t _ => flushed_eq m c t) cover

/-- The run: the result array at the specification of the arguments as launched, the arguments unchanged. -/
theorem run : θ_run defs (onTc (τ := τ) (main (F := Ideal))) ⟨m, fun _ => 0, ρ⟩ fun r => ∀ c : Dev nD,
      r.2.mem ((c : Thread nD τ).loc main_v0) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end DepScores.KernelArray

end
-- ==== Proof.RefEntry.lean ====
/-
  The reference's result, entry by entry.

  The reference computes the same three score terms with host operations over the whole arrays: two affine images of
  the input (`x · SWᵀ + SB`, `x · TWᵀ + TB`), each contracted with a block of 256 columns of the classifier's weights;
  the label embeddings looked up row by row and contracted with the third block of columns; the three terms and the
  bias broadcast to `[4, 256, 256, 12]` and added; the last two axes exchanged.

  The lookup reads the table at a START INDEX: the label word, first replaced by `word + 48` when it is negative, then
  read as a signed integer and clamped into `[0, 47]`. On a label word that is not negative the replacement does nothing
  (`Spec.wrap_of_nonneg`), so the start index is the specification's `row` of the label (`lookup_apply`). That is the one
  place where the hypothesis on the labels is used.
-/
import proofs.«405840_j39779987096218_3_alg».proof.Proof.Gen.ReferenceIdeal.Read
import proofs.«405840_j39779987096218_3_alg».proof.Proof.Spec

noncomputable section

open scoped BigOperators

namespace DepScores.RefSide

open Cert.ReferenceIdeal Cert.ReferenceIdeal.Gen Cert.ReferenceIdeal.Read Idealize.ShloMosaic Idealize.ShloMosaic.ValueIdx

/-! ## The table lookup read at an entry -/

/-- On the table's row axis the lookup reads the start index: the index word at `(b, i, j, 0)`, signed, clamped into
    `[0, 47]`. -/
theorem lookup_row (q : S4x256x256x256.Idx) (I : IVec S4x256x256x1 32) :
    (gather_S48x256_S4x256x256x1_S4x256x256x256_3_0_n_n_0_3_1256.operandIdx q I 0).val
      = min (I (ix4 (q 0 : Fin 4) (q 1 : Fin 256) (q 2 : Fin 256) (0 : Fin 1))).toInt.toNat 47 := by
  show gather_S48x256_S4x256x256x1_S4x256x256x256_3_0_n_n_0_3_1256.start q I 0
      + gather_S48x256_S4x256x256x1_S4x256x256x256_3_0_n_n_0_3_1256.batchCoord q 0
      + gather_S48x256_S4x256x256x1_S4x256x256x256_3_0_n_n_0_3_1256.offCoord q 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S48x256_S4x256x256x1_S4x256x256x256_3_0_n_n_0_3_1256.startIndexMap from
    List.mem_singleton.mpr rfl)]
  have hsi : gather_S48x256_S4x256x256x1_S4x256x256x256_3_0_n_n_0_3_1256.siIdx q
      ⟨List.idxOf (0 : Fin 2) gather_S48x256_S4x256x256x1_S4x256x256x256_3_0_n_n_0_3_1256.startIndexMap,
        List.idxOf_lt_length_iff.2 (List.mem_singleton.mpr rfl)⟩
      = ix4 (q 0 : Fin 4) (q 1 : Fin 256) (q 2 : Fin 256) (0 : Fin 1) := by
    funext b; refine Fin.ext ?_
    match b with
    | ⟨0, _⟩ => rfl
    | ⟨1, _⟩ => rfl
    | ⟨2, _⟩ => rfl
    | ⟨3, _⟩ => rfl
  rw [hsi]
  rfl

/-- On the table's column axis it reads the result's last coordinate. -/
theorem lookup_col (q : S4x256x256x256.Idx) (I : IVec S4x256x256x1 32) :
    (gather_S48x256_S4x256x256x1_S4x256x256x256_3_0_n_n_0_3_1256.operandIdx q I 1).val = (q 3).val := by
  show gather_S48x256_S4x256x256x1_S4x256x256x256_3_0_n_n_0_3_1256.start q I 1
      + gather_S48x256_S4x256x256x1_S4x256x256x256_3_0_n_n_0_3_1256.batchCoord q 1
      + gather_S48x256_S4x256x256x1_S4x256x256x256_3_0_n_n_0_3_1256.offCoord q 1 = _
  rw [GatherDims.batchCoord_eq_zero _ _ _ List.not_mem_nil]
  unfold GatherDims.start
  rw [dif_neg (show ¬(1 : Fin 2) ∈ gather_S48x256_S4x256x256x1_S4x256x256x256_3_0_n_n_0_3_1256.startIndexMap by decide)]
  unfold GatherDims.offCoord
  rw [dif_pos (show (1 : Fin 2) ∈ gather_S48x256_S4x256x256x1_S4x256x256x256_3_0_n_n_0_3_1256.sKept by decide)]
  simp only [Nat.zero_add, Nat.add_zero]
  rfl

/-- THE LOOKUP AT AN ENTRY: row "start index", column `h` of the table. -/
theorem lookup_apply (E : FVec Ideal S48x256 .f32) (I : IVec S4x256x256x1 32) (b : Fin 4) (i j h : Fin 256) :
    Host.gather gather_S48x256_S4x256x256x1_S4x256x256x256_3_0_n_n_0_3_1256 E I (ix4 b i j h)
      = E (ix2 (⟨min (I (ix4 b i j (0 : Fin 1))).toInt.toNat 47, by omega⟩ : Fin 48) h) := by
  unfold Host.gather
  congr 1
  funext a
  apply Fin.ext
  match a with
  | ⟨0, _⟩ => exact lookup_row _ _
  | ⟨1, _⟩ => exact lookup_col _ _

/-! ## The three score terms -/

variable (X : FVec Ideal S4x256x768 .f32) (D : IVec S4x256x256 32) (SW : FVec Ideal S256x768 .f32)
  (SB : FVec Ideal S256 .f32) (TW : FVec Ideal S256x768 .f32) (TB : FVec Ideal S256 .f32) (E : FVec Ideal S48x256 .f32)
  (CW : FVec Ideal S12x768 .f32) (CB : FVec Ideal S12 .f32)

/-- `X · SWᵀ + SB` at `(b, i, h)`. -/
theorem affineS_apply (b : Fin 4) (i h : Fin 256) :
    val_main_v3 (F := Ideal) X SW SB (ix3 b i h) = (∑ k : Fin 768, X (ix3 b i k) * SW (ix2 h k)) + SB (ix1 h) := by
  rw [val_main_v3_apply, val_main_v0_apply, val_main_v2_apply, val_main_v1_apply, Ideal.addf_def]
  congr 1
  · refine Finset.sum_congr rfl fun k _ => ?_
    congr 1
    · exact congrArg X (funext fun a => by match a with | ⟨0, _⟩ => rfl | ⟨1, _⟩ => rfl | ⟨2, _⟩ => rfl)
    · exact congrArg SW (funext fun a => by match a with | ⟨0, _⟩ => rfl | ⟨1, _⟩ => rfl)
  · exact congrArg SB (funext fun a => by match a with | ⟨0, _⟩ => rfl)

/-- `X · TWᵀ + TB` at `(b, j, h)`. -/
theorem affineT_apply (b : Fin 4) (j h : Fin 256) :
    val_main_v7 (F := Ideal) X TW TB (ix3 b j h) = (∑ k : Fin 768, X (ix3 b j k) * TW (ix2 h k)) + TB (ix1 h) := by
  rw [val_main_v7_apply, val_main_v4_apply, val_main_v6_apply, val_main_v5_apply, Ideal.addf_def]
  congr 1
  · refine Finset.sum_congr rfl fun k _ => ?_
    congr 1
    · exact congrArg X (funext fun a => by match a with | ⟨0, _⟩ => rfl | ⟨1, _⟩ => rfl | ⟨2, _⟩ => rfl)
    · exact congrArg TW (funext fun a => by match a with | ⟨0, _⟩ => rfl | ⟨1, _⟩ => rfl)
  · exact congrArg TB (funext fun a => by match a with | ⟨0, _⟩ => rfl)

/-- The head term at `(b, i, c)`. -/
theorem headScore_apply (b : Fin 4) (i : Fin 256) (c : Fin 12) :
    val_main_v11 (F := Ideal) X SW SB CW (ix3 b i c)
      = ∑ h : Fin 256, ((∑ k : Fin 768, X (ix3 b i k) * SW (ix2 h k)) + SB (ix1 h))
          * CW (ix2 c ⟨h.val, by have := h.isLt; omega⟩) := by
  rw [val_main_v11_apply]
  refine Finset.sum_congr rfl fun h _ => ?_
  have el : lidx_main_v11 (ix3 b i c) h = ix3 b i h :=
    funext fun a => by match a with | ⟨0, _⟩ => rfl | ⟨1, _⟩ => rfl | ⟨2, _⟩ => rfl
  rw [el, affineS_apply, val_main_v8_apply]
  congr 1
  exact congrArg CW (funext fun a => by match a with | ⟨0, _⟩ => rfl | ⟨1, _⟩ => rfl)

/-- The dependent term at `(b, j, c)`. -/
theorem depScore_apply (b : Fin 4) (j : Fin 256) (c : Fin 12) :
    val_main_v12 (F := Ideal) X TW TB CW (ix3 b j c)
      = ∑ h : Fin 256, ((∑ k : Fin 768, X (ix3 b j k) * TW (ix2 h k)) + TB (ix1 h))
          * CW (ix2 c ⟨256 + h.val, by have := h.isLt; omega⟩) := by
  rw [val_main_v12_apply]
  refine Finset.sum_congr rfl fun h _ => ?_
  have el : lidx_main_v12 (ix3 b j c) h = ix3 b j h :=
    funext fun a => by match a with | ⟨0, _⟩ => rfl | ⟨1, _⟩ => rfl | ⟨2, _⟩ => rfl
  rw [el, affineT_apply, val_main_v9_apply]
  congr 1
  exact congrArg CW (funext fun a => by match a with | ⟨0, _⟩ => rfl | ⟨1, _⟩ => rfl)

/-- The label term at `(b, i, j, c)`, when no label word is negative. -/
theorem labelScore_apply (hD : ∀ p, IntOp.cmpi .sge (D p) 0#32 = 1#1) (b : Fin 4) (i j : Fin 256) (c : Fin 12) :
    val_main_v20 (F := Ideal) D E CW (ix4 b i j c)
      = ∑ h : Fin 256, E (ix2 (row (D (ix3 b i j))) h) * CW (ix2 c ⟨512 + h.val, by have := h.isLt; omega⟩) := by
  rw [val_main_v20_apply]
  refine Finset.sum_congr rfl fun h _ => ?_
  have el : lidx_main_v20 (ix4 b i j c) h = ix4 b i j h :=
    funext fun a => by match a with | ⟨0, _⟩ => rfl | ⟨1, _⟩ => rfl | ⟨2, _⟩ => rfl | ⟨3, _⟩ => rfl
  rw [el, val_main_v10_apply]
  congr 1
  · unfold val_main_v19
    rw [lookup_apply]
    have hw : val_main_v18 (F := Ideal) D (ix4 b i j (0 : Fin 1)) = D (ix3 b i j) := by
      rw [val_main_v18_apply, val_main_v17_apply, val_main_v14_apply, val_main_v16_apply, val_main_v13_apply,
        val_main_v15_apply, val_main_c_apply, val_main_c_0_apply]
      have ei : idx_main_v18 (ix4 b i j (0 : Fin 1)) = ix3 b i j :=
        funext fun a => by match a with | ⟨0, _⟩ => rfl | ⟨1, _⟩ => rfl | ⟨2, _⟩ => rfl
      rw [ei]
      exact wrap_of_nonneg _ (hD _)
    refine congrArg E (congrArg (fun r : Fin 48 => ix2 r h) (Fin.ext ?_))
    show min (val_main_v18 (F := Ideal) D (ix4 b i j (0 : Fin 1))).toInt.toNat 47 = min (D (ix3 b i j)).toInt.toNat 47
    rw [hw]
  · exact congrArg CW (funext fun a => by match a with | ⟨0, _⟩ => rfl | ⟨1, _⟩ => rfl)

/-! ## The result -/

/-- THE REFERENCE'S RESULT is the specification of its arguments, when no label word is negative. -/
theorem result_eq (hD : ∀ p, IntOp.cmpi .sge (D p) 0#32 = 1#1) :
    val_main_v30 (F := Ideal) X D SW SB TW TB E CW CB = G X D SW SB TW TB E CW CB := by
  funext q
  obtain ⟨b, i, c, j, rfl⟩ : ∃ (b : Fin 4) (i : Fin 256) (c : Fin 12) (j : Fin 256), q = ix4 b i c j :=
    ⟨q 0, q 1, q 2, q 3, eq_ix4 q⟩
  have e30 : idx_main_v30 (ix4 b i c j) = ix4 b i j c :=
    funext fun a => by match a with | ⟨0, _⟩ => rfl | ⟨1, _⟩ => rfl | ⟨2, _⟩ => rfl | ⟨3, _⟩ => rfl
  have e21 : idx_main_v21 (idx_main_v22 (ix4 b i j c)) = ix3 b i c :=
    funext fun a => by match a with | ⟨0, _⟩ => rfl | ⟨1, _⟩ => rfl | ⟨2, _⟩ => rfl
  have e24 : idx_main_v24 (idx_main_v25 (ix4 b i j c)) = ix3 b j c :=
    funext fun a => by match a with | ⟨0, _⟩ => rfl | ⟨1, _⟩ => rfl | ⟨2, _⟩ => rfl
  have e27 : idx_main_v27 (idx_main_v28 (ix4 b i j c)) = ix1 c :=
    funext fun a => by match a with | ⟨0, _⟩ => rfl
  rw [val_main_v30_apply, e30, val_main_v29_apply, val_main_v26_apply, val_main_v23_apply,
    labelScore_apply D E CW hD, val_main_v22_apply, val_main_v21_apply, e21, headScore_apply,
    val_main_v25_apply, val_main_v24_apply, e24, depScore_apply, val_main_v28_apply, val_main_v27_apply, e27]
  simp only [Ideal.addf_def]
  rfl

end DepScores.RefSide

end
-- ==== Proof.PreLabels.lean ====
/-
  What the precondition says of the label words.

  The precondition is a conjunction of nine "all" tests, one per argument array, and-ed in order; the last is "every
  label word is at least 0 as a signed integer". A conjunction that is 1 has its last conjunct 1, and an "all" that is
  1 had a 1 at every index: every label word compares at least 0.
-/
import proofs.«405840_j39779987096218_3_alg».proof.Proof.Gen.Pre_finite_inputs
import Idealize.ShloMosaic.Lib.ReduceAll
import Idealize.ShloMosaic.Lib.Affine
import Idealize.ShloMosaic.Lib.ValueIdx

noncomputable section

namespace DepScores.PreSide

open Cert.Pre_finite_inputs Idealize.ShloMosaic

instance : Subsingleton S_.Idx := ⟨fun a b => funext fun d => d.elim0⟩

/-- Under the precondition no label word is negative. -/
theorem labels_nonneg (a0 : FVec Ideal S4x256x768 .f32) (a1 : IVec S4x256x256 32) (a2 : FVec Ideal S256x768 .f32)
    (a3 : FVec Ideal S256 .f32) (a4 : FVec Ideal S256x768 .f32) (a5 : FVec Ideal S256 .f32) (a6 : FVec Ideal S48x256 .f32)
    (a7 : FVec Ideal S12x768 .f32) (a8 : FVec Ideal S12 .f32)
    (h : fn (F := Ideal) a0 a1 a2 a3 a4 a5 a6 a7 a8 = fun _ => 1#1) (p : S4x256x256.Idx) :
    IntOp.cmpi .sge (a1 p) 0#32 = 1#1 := by
  have h0 := congrFun h ValueIdx.ix0
  dsimp only [fn, fn_part1, fn_part2] at h0
  have h1 := (IntOp.andi_eq_one.mp h0).2
  exact Host.reduce_andi_all _ _ _ _ _ h1 p

end DepScores.PreSide

end
-- ==== Proof.lean ====
/-
  A dependency-labelling layer: for each batch member, each head position `i`, dependent position `j` and class `c`,

      score[b, i, c, j] = ⟨E[label[b,i,j]], w_d[c]⟩ + ⟨x[b,i]·SWᵀ + SB, w_s[c]⟩ + ⟨x[b,j]·TWᵀ + TB, w_t[c]⟩ + CB[c],

  with `w_s | w_t | w_d` the three blocks of 256 columns of the classifier's weights. The kernel computes one batch
  member per grid point; it never forms the looked-up embeddings but projects the 48-row table onto the classes once
  (`E · w_dᵀ`, a `[48, 12]` matrix) and selects the label's row of it by a matrix product with a one-hot matrix of the
  labels clamped into `[0, 47]`. The reference looks the embeddings up, which first counts a negative label from the
  end of the table (`label + 48`) and then clamps. The two agree wherever no label is negative — the precondition's
  last conjunct, the evident domain of a table lookup; above 47 both clamp to row 47, so no upper bound is asked.
  (At a label in `[-47, -1]` they differ: the reference reads row `label + 48`, the kernel row 0.)

  Over the extended reals a change of float format is the identity and every matrix product is a plain finite sum, and
  the two programs order and group their sums alike, so no finiteness of the entries is used: the only law needed is
  that a sum weighted by a one-hot column picks one term (`x · 0 = 0`, `x · 1 = x`, `0 + x = x`).

  * `Proof/Spec.lean`: the score as one function `G` of the nine argument arrays, and the facts about label words.
  * `Proof/PlainMatmul.lean`: a matrix product into a zero accumulator, read at an entry.
  * `Proof/KernelEntry.lean`: the block the kernel's body stores, entry by entry, is `G`'s score of its batch member.
  * `Proof/KernelArray.lean`: each grid point writes back its block of `G`, the blocks cover the result, so the result is `G`.
  * `Proof/RefEntry.lean`: the reference's result, entry by entry, is `G` when no label is negative.
  * `Proof/PreLabels.lean`: the precondition says no label is negative.
  The three frames are the generated ones (the reference's is its run with the result dropped); the idealization
  rewrote nothing, so there is nothing to preserve.
-/
import proofs.«405840_j39779987096218_3_alg».proof.Defs
import proofs.«405840_j39779987096218_3_alg».proof.Proof.Gen.Kernel
import proofs.«405840_j39779987096218_3_alg».proof.Proof.Gen.Kernel.Skeleton
import proofs.«405840_j39779987096218_3_alg».proof.Proof.Gen.Kernel.Launch
import proofs.«405840_j39779987096218_3_alg».proof.Proof.Gen.Kernel.Points
import proofs.«405840_j39779987096218_3_alg».proof.Proof.Gen.Kernel.Frame
import proofs.«405840_j39779987096218_3_alg».proof.Proof.Gen.KernelIdeal
import proofs.«405840_j39779987096218_3_alg».proof.Proof.Gen.KernelIdeal.Skeleton
import proofs.«405840_j39779987096218_3_alg».proof.Proof.Gen.KernelIdeal.Launch
import proofs.«405840_j39779987096218_3_alg».proof.Proof.Gen.KernelIdeal.Points
import proofs.«405840_j39779987096218_3_alg».proof.Proof.Gen.KernelIdeal.Frame
import proofs.«405840_j39779987096218_3_alg».proof.Proof.Gen.ReferenceIdeal
import proofs.«405840_j39779987096218_3_alg».proof.Proof.Gen.KernelIdeal.Value
import proofs.«405840_j39779987096218_3_alg».proof.Proof.Gen.ReferenceIdeal.Run
import proofs.«405840_j39779987096218_3_alg».proof.Proof.Gen.ReferenceIdeal.Read
import proofs.«405840_j39779987096218_3_alg».proof.Proof.Gen.Pre_finite_inputs
import proofs.«405840_j39779987096218_3_alg».proof.Proof.KernelArray
import proofs.«405840_j39779987096218_3_alg».proof.Proof.RefEntry
import proofs.«405840_j39779987096218_3_alg».proof.Proof.PreLabels
import Idealize.ShloMosaic.Adequacy
import Idealize.ShloMosaic.Init

noncomputable section

namespace Cert.Proof

open Idealize.ShloMosaic Idealize.SL.Sem

/-- The kernel at the word level runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments, with no label negative, both programs end with the result array
    at the specification `G` of those arguments. -/
theorem algebraic : Cert.algebraic_KernelIdeal_ReferenceIdeal := by
  intro m ρ m' ρ' hpre hagree
  refine ⟨fun c => DepScores.KernelArray.GA m c, DepScores.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  have hD : ∀ p, IntOp.cmpi .sge
      (m' ((c.tc : Thread Cert.ReferenceIdeal.nD Cert.ReferenceIdeal.τ).loc Cert.ReferenceIdeal.main_arg1) p) 0#32 = 1#1 := by
    intro p
    rw [h1]
    exact DepScores.PreSide.labels_nonneg _ _ _ _ _ _ _ _ _ (hpre c) p
  rw [Cert.ReferenceIdeal.Read.val_main_v30_eq, DepScores.RefSide.result_eq _ _ _ _ _ _ _ _ _ hD,
    h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
